-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000x64 : Shape := ⟨2, ![1600000, 64]⟩
abbrev S100000x1 : Shape := ⟨2, ![100000, 1]⟩
abbrev S64x64 : Shape := ⟨2, ![64, 64]⟩
abbrev S1600000x1 : Shape := ⟨2, ![1600000, 1]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S100000x1 : S_.BroadcastsInDim S100000x1 (![] : Fin 0 → Fin S100000x1.rank)
  reducesTo_S100000x1_S_d0_1 : S100000x1.ReducesTo [0, 1] S_
  bcast_S_S64x64 : S_.BroadcastsInDim S64x64 (![] : Fin 0 → Fin S64x64.rank)
  reducesTo_S64x64_S_d0_1 : S64x64.ReducesTo [0, 1] S_
  bcast_S_S1600000x1 : S_.BroadcastsInDim S1600000x1 (![] : Fin 0 → Fin S1600000x1.rank)
  reducesTo_S1600000x1_S_d0_1 : S1600000x1.ReducesTo [0, 1] S_

variable [Facts]

def fn_part1 {F : FTy → Type} [FloatOps F] (main_arg4 : FVec F S1600000x1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S1600000x1 .f32 := Host.absf main_arg4
  let main_cst_6 : FVec F S_ .f32 := constant S_ .f32 0x7F800000#32
  let main_v20 : FVec F S1600000x1 .f32 := broadcastInDim S1600000x1 ![] bcast_S_S1600000x1 main_cst_6
  let main_v21 : IVec S1600000x1 1 := cmpf .olt main_v19 main_v20
  let main_c_7 : IVec S_ 1 := constantI S_ 1 1#1
  let main_v22 : IVec S_ 1 := (fun x v => Host.reduce IntOp.andi x v reducesTo_S1600000x1_S_d0_1 h_S_) main_v21 main_c_7
  let main_v23 : IVec S_ 1 := andi main_v18 main_v22
  main_v23

def fn {F : FTy → Type} [FloatOps F] (main_arg0 : FVec F S100000x64 .f32) (main_arg1 : FVec F S1600000x64 .f32) (main_arg2 : FVec F S100000x1 .f32) (main_arg3 : FVec F S64x64 .f32) (main_arg4 : FVec F S1600000x1 .f32) (main_arg5 : IVec S1600000 32) (main_arg6 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x64 .f32 := Host.absf main_arg1
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S100000x1 .f32 := Host.absf main_arg2
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_v13 main_v16
-- ==== Kernel.lean ====
abbrev S100000x64 : Shape := ⟨2, ![100000, 64]⟩
abbrev S1600000x64 : Shape := ⟨2, ![1600000, 64]⟩
abbrev S100000x1 : Shape := ⟨2, ![100000, 1]⟩
abbrev S64x64 : Shape := ⟨2, ![64, 64]⟩
abbrev S1600000x1 : Shape := ⟨2, ![1600000, 1]⟩
abbrev S1600000 : Shape := ⟨1, ![1600000]⟩
abbrev S_ : Shape := ⟨0, ![]⟩
abbrev S8000x64 : Shape := ⟨2, ![8000, 64]⟩
abbrev S8000x1 : Shape := ⟨2, ![8000, 1]⟩

abbrev nBuf : Space → Nat
  | .hbm => 34
  | .vmem => 9
  | .smem => 0
  | _ => 0

abbrev bufTy : (tb : Table) → Fin (tcTables nBuf tb) → BufTy
  | .hbm, ⟨0, _⟩ => ⟨S100000x64, .f32⟩
  | .hbm, ⟨1, _⟩ => ⟨S1600000x64, .f32⟩
  | .hbm, ⟨2, _⟩ => ⟨S100000x1, .f32⟩
  | .hbm, ⟨3, _⟩ => ⟨S64x64, .f32⟩
  | .hbm, ⟨4, _⟩ => ⟨S1600000x1, .f32⟩
  | .hbm, ⟨5, _⟩ => ⟨S1600000, .i32⟩
  | .hbm, ⟨6, _⟩ => ⟨S1600000, .i32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x1, .f32⟩
  | .hbm, ⟨25, _⟩ => ⟨S1600000x1, .f32⟩
  | .hbm, ⟨26, _⟩ => ⟨S64x64, .f32⟩
  | .hbm, ⟨27, _⟩ => ⟨S1600000x64, .f32⟩
  | .hbm, ⟨28, _⟩ => ⟨S_, .f32⟩
  | .hbm, ⟨29, _⟩ => ⟨S100000x64, .f32⟩
  | .hbm, ⟨30, _⟩ => ⟨S1600000x1, .i32⟩
  | .hbm, ⟨31, _⟩ => ⟨S100000x64, .f32⟩
  | .hbm, ⟨32, _⟩ => ⟨S100000x64, .f32⟩
  | .hbm, ⟨33, _⟩ => ⟨S100000x64, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S8000x1, .f32⟩
  | .local _ .vmem, ⟨5, _⟩ => ⟨S8000x1, .f32⟩
  | .local _ .vmem, ⟨6, _⟩ => ⟨S64x64, .f32⟩
  | .local _ .vmem, ⟨7, _⟩ => ⟨S8000x64, .f32⟩
  | .local _ .vmem, ⟨8, _⟩ => ⟨S8000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  transposes_S64x64_S64x64_1_0 : S64x64.Transposes [1, 0] S64x64
  inb_S8000x64_S8000x64_0_0 : ∀ a, (![0, 0] : Fin 2 → Nat) a + S8000x64.size a ≤ S8000x64.size a
  h_S8000x64 : 0 < S8000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S8000x64_S8000x64 : S8000x64.ShapeCasts S8000x64
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x64 : S8000x1.Broadcasts S8000x64
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  gather_S100000x1_S1600000x1_S1600000x1_1_0_n_n_0_1_11_wf : GatherDims.WF S100000x1 S1600000x1 S1600000x1 [1] [0] [] [0] [] 1 ![1, 1]
  dot_S8000x64_S64x64_S8000x64_1_0_0_1_n_n_wf : DotDims.WF S8000x64 S64x64 S8000x64 [1] [0] [0] [1] [] []
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1600000x64.size a
  hwx0_0 : ∀ i : grid0.Coords, EltTy.bits .f32 = 32 ∨ (Rect.block (s := S1600000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1600000x64.size a
  hwx0_1 : ∀ i : grid0.Coords, EltTy.bits .f32 = 32 ∨ (Rect.block (s := S1600000x64) S8000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x1.size a ≤ S1600000x1.size a
  hwx0_2 : ∀ i : grid0.Coords, EltTy.bits .f32 = 32 ∨ (Rect.block (s := S1600000x1) S8000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x64.size a ≤ S1600000x64.size a
  hwx0_4 : ∀ i : grid0.Coords, EltTy.bits .f32 = 32 ∨ (Rect.block (s := S1600000x64) S8000x64.size (cc0_transform_4 i) (hinb0_4 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg1) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S8000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S8000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000x64 : Shape := ⟨2, ![1600000, 64]⟩
abbrev S100000x1 : Shape := ⟨2, ![100000, 1]⟩
abbrev S64x64 : Shape := ⟨2, ![64, 64]⟩
abbrev S1600000x1 : Shape := ⟨2, ![1600000, 1]⟩
abbrev S1600000 : Shape := ⟨1, ![1600000]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000x64, .f32⟩
  | .hbm, ⟨2, _⟩ => ⟨S100000x1, .f32⟩
  | .hbm, ⟨3, _⟩ => ⟨S64x64, .f32⟩
  | .hbm, ⟨4, _⟩ => ⟨S1600000x1, .f32⟩
  | .hbm, ⟨5, _⟩ => ⟨S1600000, .i32⟩
  | .hbm, ⟨6, _⟩ => ⟨S1600000, .i32⟩
  | .hbm, ⟨7, _⟩ => ⟨S1600000x64, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S1600000x64, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x1, .f32⟩
  | .hbm, ⟨27, _⟩ => ⟨S1600000x1, .f32⟩
  | .hbm, ⟨28, _⟩ => ⟨S1600000x64, .f32⟩
  | .hbm, ⟨29, _⟩ => ⟨S1600000x64, .f32⟩
  | .hbm, ⟨30, _⟩ => ⟨S_, .f32⟩
  | .hbm, ⟨31, _⟩ => ⟨S100000x64, .f32⟩
  | .hbm, ⟨32, _⟩ => ⟨S1600000x1, .i32⟩
  | .hbm, ⟨33, _⟩ => ⟨S100000x64, .f32⟩
  | .hbm, ⟨34, _⟩ => ⟨S100000x64, .f32⟩
  | .hbm, ⟨35, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  dot_S1600000x64_S64x64_S1600000x64_1_1_0_0_n_n_wf : DotDims.WF S1600000x64 S64x64 S1600000x64 [1] [1] [0] [0] [] []
  gather_S100000x64_S1600000x1_S1600000x64_1_0_n_n_0_1_164_wf : GatherDims.WF S100000x64 S1600000x1 S1600000x64 [1] [0] [] [0] [] 1 ![1, 64]
  gather_S100000x1_S1600000x1_S1600000x1_1_0_n_n_0_1_11_wf : GatherDims.WF S100000x1 S1600000x1 S1600000x1 [1] [0] [] [0] [] 1 ![1, 1]
  scatter_S100000x64_S1600000x1_S1600000x64_1_0_0_1_wf : ScatterDims.WF S100000x64 S1600000x1 S1600000x64 [1] [0] [0] 1

variable [Facts₀]

def dot_S1600000x64_S64x64_S1600000x64_1_1_0_0_n_n : DotDims S1600000x64 S64x64 S1600000x64 where
  lhsContracting := [1]
  rhsContracting := [1]
  lhsNonContracting := [0]
  rhsNonContracting := [0]
  lhsBatch := []
  rhsBatch := []
  wf := dot_S1600000x64_S64x64_S1600000x64_1_1_0_0_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.LibDotRead.lean ====
/- A matrix product's contraction sum re-indexed by the contracted coordinate: for the product of an m x k by a
   k x n matrix, and for the product of the transpose of a k x m matrix by a k x n matrix. -/
import Idealize.ShloMosaic.Lib.ValueIdx
import Idealize.ShloMosaic.PureOps.Ideal.Laws

noncomputable section

open scoped BigOperators

namespace Cert.DotRead

open Idealize.ShloMosaic Idealize.ShloMosaic.ValueIdx

/-- Rows by columns: the contraction at (a, b) runs over A (a, c) * B (c, b). -/
theorem sum_contr_plain {m k n : Nat}
    (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (a : Fin m) (b : Fin n) :
    ∑ q : (⟨[1], [0], [0], [1], [], [], w⟩ : DotDims ⟨2, ![m, k]⟩ ⟨2, ![k, n]⟩ ⟨2, ![m, n]⟩).contr.Idx,
        A ((⟨[1], [0], [0], [1], [], [], w⟩ : DotDims ⟨2, ![m, k]⟩ ⟨2, ![k, n]⟩ ⟨2, ![m, n]⟩).lhsIdx (ix2 a b) q)
          * B ((⟨[1], [0], [0], [1], [], [], w⟩ : DotDims ⟨2, ![m, k]⟩ ⟨2, ![k, n]⟩ ⟨2, ![m, n]⟩).rhsIdx (ix2 a b) q)
      = ∑ c : Fin k, A (ix2 a c) * B (ix2 c b) := by
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand transposed: the contraction at (a, b) runs over A (c, a) * B (c, b). -/
theorem sum_contr_lhsT {m k n : Nat}
    (w : DotDims.WF ⟨2, ![k, m]⟩ ⟨2, ![k, n]⟩ ⟨2, ![m, n]⟩ [0] [0] [1] [1] [] [])
    (A : (⟨2, ![k, m]⟩ : Shape).Idx → EReal) (B : (⟨2, ![k, n]⟩ : Shape).Idx → EReal) (a : Fin m) (b : Fin n) :
    ∑ q : (⟨[0], [0], [1], [1], [], [], w⟩ : DotDims ⟨2, ![k, m]⟩ ⟨2, ![k, n]⟩ ⟨2, ![m, n]⟩).contr.Idx,
        A ((⟨[0], [0], [1], [1], [], [], w⟩ : DotDims ⟨2, ![k, m]⟩ ⟨2, ![k, n]⟩ ⟨2, ![m, n]⟩).lhsIdx (ix2 a b) q)
          * B ((⟨[0], [0], [1], [1], [], [], w⟩ : DotDims ⟨2, ![k, m]⟩ ⟨2, ![k, n]⟩ ⟨2, ![m, n]⟩).rhsIdx (ix2 a b) q)
      = ∑ c : Fin k, A (ix2 c a) * B (ix2 c b) := by
  rw [← Equiv.sum_comp (contrEquiv1 (⟨[0], [0], [1], [1], [], [], w⟩ : DotDims ⟨2, ![k, m]⟩ ⟨2, ![k, n]⟩ ⟨2, ![m, n]⟩) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.DotRead

end
-- ==== Proof.MessageSpec.lean ====
/- The per-edge message as ONE function of four whole arrays, index by index.

   For edge `e` and output feature `f`:
     msg (e, f) = (sum over k of review (e, k) * w (f, k)  +  fs (e, f)) * sc (e, 0)
   where `review` is the edge-feature matrix, `w` the 64 x 64 projection with one ROW per output feature (the
   contraction runs along its second axis), `fs` the source-node features gathered per edge and `sc` the per-edge scale
   (the gathered node coefficient times the dropout mask), a column. Both programs compute exactly this array and
   then scatter-add it by destination node; they differ only in how the product is arranged (blocks of 8000 edges
   against the weight transposed beforehand, or one whole contraction against the weight's second axis), which at the
   extended reals is the same finite sum. -/
import Idealize.ShloMosaic.Lib.ValueIdx
import Idealize.ShloMosaic.PureOps.Ideal.Laws

noncomputable section

open scoped BigOperators

namespace Cert.Message

open Idealize.ShloMosaic Idealize.ShloMosaic.ValueIdx

/-- The message array: projected edge feature plus gathered source feature, scaled per edge. -/
def msg (review : (⟨2, ![1600000, 64]⟩ : Shape).Idx → EReal) (w : (⟨2, ![64, 64]⟩ : Shape).Idx → EReal)
    (fs : (⟨2, ![1600000, 64]⟩ : Shape).Idx → EReal) (sc : (⟨2, ![1600000, 1]⟩ : Shape).Idx → EReal) :
    (⟨2, ![1600000, 64]⟩ : Shape).Idx → EReal :=
  fun i => (∑ k : Fin 64, review (ix2 (i 0) k) * w (ix2 (i 1) k) + fs i) * sc (ix2 (i 0) 0)

theorem msg_apply (review : (⟨2, ![1600000, 64]⟩ : Shape).Idx → EReal) (w : (⟨2, ![64, 64]⟩ : Shape).Idx → EReal)
    (fs : (⟨2, ![1600000, 64]⟩ : Shape).Idx → EReal) (sc : (⟨2, ![1600000, 1]⟩ : Shape).Idx → EReal)
    (e : Fin 1600000) (f : Fin 64) :
    msg review w fs sc (ix2 e f) = (∑ k : Fin 64, review (ix2 e k) * w (ix2 f k) + fs (ix2 e f)) * sc (ix2 e 0) := rfl

end Cert.Message

end
-- ==== Proof.KernelPayload.lean ====
/- What the kernel body stores for one block of 8000 edges, read at an index.

   The body loads a block of edge features `x0` (8000 x 64), the whole transposed weight `x3` (64 x 64), the
   matching block of gathered source features `x1` (8000 x 64) and of per-edge scales `x2` (8000 x 1), and stores
     (x0 . x3 + x1) * x2        (the scale column broadcast along the 64 features).
   At the extended reals the narrowing of both factors to a 16-bit format is the identity and the product into
   a zero accumulator is the plain contraction sum, so at row `p`, feature `q` the stored value is
     (sum over k of x0 (p, k) * x3 (k, q)  +  x1 (p, q)) * x2 (p, 0).
   `pay_eq_msg` then says: if the four loaded blocks are what the whole arrays hold at array index `i` (the
   weight block being the transpose of `w`), the stored value is the message array's entry at `i`. -/
import proofs.«133310_j84335977825023_1_alg».proof.Proof.Gen.KernelIdeal.Skeleton
import proofs.«133310_j84335977825023_1_alg».proof.Proof.LibDotRead
import proofs.«133310_j84335977825023_1_alg».proof.Proof.MessageSpec
import Idealize.ShloMosaic.Lib.ValueIdx
import Idealize.ShloMosaic.Lib.Pipeline.Value
import Idealize.ShloMosaic.PureOps.Ideal.Laws

noncomputable section

open scoped BigOperators

namespace Cert.KernelIdeal.Payload

open Idealize.ShloMosaic Idealize.ShloMosaic.ValueIdx Cert.KernelIdeal Cert.KernelIdeal.Gen

/-- The block product at (p, q): the contraction runs along the row of `x0` and down the column of `x3`. -/
theorem block_product_apply (x0 : Vec Ideal S8000x64 .f32) (x3 : Vec Ideal S64x64 .f32) (p : Fin 8000) (q : Fin 64) :
    matmul dot_S8000x64_S64x64_S8000x64_1_0_0_1_n_n none (truncf .bf16 x0 bitsLt_bf16_f32)
        (truncf .bf16 x3 bitsLt_bf16_f32) (constant (F := Ideal) S8000x64 .f32 0x00000000#32) (ix2 p q)
      = ∑ k : Fin 64, x0 (ix2 p k) * x3 (ix2 k q) :=
  (Ideal.matmul_constant_zero_apply dot_S8000x64_S64x64_S8000x64_1_0_0_1_n_n none (truncf .bf16 x0 bitsLt_bf16_f32)
      (truncf .bf16 x3 bitsLt_bf16_f32) (ix2 p q)).trans
    (Cert.DotRead.sum_contr_plain dot_S8000x64_S64x64_S8000x64_1_0_0_1_n_n_wf x0 x3 p q)

/-- The stored value at row `p`, feature `q` of the block. -/
theorem pay_apply (x0 : Vec Ideal S8000x64 .f32) (x3 : Vec Ideal S64x64 .f32) (x1 : Vec Ideal S8000x64 .f32)
    (x2 : Vec Ideal S8000x1 .f32) (p : Fin 8000) (q : Fin 64) :
    k0_pay1 (F := Ideal) x0 x3 x1 x2 (ix2 p q)
      = (∑ k : Fin 64, x0 (ix2 p k) * x3 (ix2 k q) + x1 (ix2 p q)) * x2 (ix2 p 0) := by
  unfold k0_pay1
  rw [mulf_apply, addf_apply, shapeCast_self, shapeCast_self, shapeCast_self, block_product_apply,
    broadcastTo_apply x2 broadcasts_S8000x1_S8000x64 (ix2 p q) (ix2 p 0)
      (by intro a; match a with | ⟨0, _⟩ => rfl | ⟨1, _⟩ => rfl)]

/-- The stored value is the message array's entry at `i`, when block index `j` sits at array index `i`: the
    edge-feature row and the scale are read at edge `i 0`, the gathered feature at `i`, and the weight block's
    column `j 1` is row `i 1` of `w`. -/
theorem pay_eq_msg (x0 : Vec Ideal S8000x64 .f32) (x3 : Vec Ideal S64x64 .f32) (x1 : Vec Ideal S8000x64 .f32)
    (x2 : Vec Ideal S8000x1 .f32)
    (review : (⟨2, ![1600000, 64]⟩ : Shape).Idx → EReal) (w : (⟨2, ![64, 64]⟩ : Shape).Idx → EReal)
    (fs : (⟨2, ![1600000, 64]⟩ : Shape).Idx → EReal) (sc : (⟨2, ![1600000, 1]⟩ : Shape).Idx → EReal)
    (j : S8000x64.Idx) (i : (⟨2, ![1600000, 64]⟩ : Shape).Idx)
    (h0 : ∀ k : Fin 64, x0 (ix2 (j 0) k) = review (ix2 (i 0) k))
    (h3 : ∀ k : Fin 64, x3 (ix2 k (j 1)) = w (ix2 (i 1) k))
    (h1 : x1 (ix2 (j 0) (j 1)) = fs i)
    (h2 : x2 (ix2 (j 0) 0) = sc (ix2 (i 0) 0)) :
    k0_pay1 (F := Ideal) x0 x3 x1 x2 j = Cert.Message.msg review w fs sc i := by
  obtain ⟨p, q, rfl⟩ : ∃ (p : Fin 8000) (q : Fin 64), j = ix2 p q := ⟨j 0, j 1, eq_ix2 j⟩
  have h0' : ∀ k : Fin 64, x0 (ix2 p k) = review (ix2 (i 0) k) := h0
  have h3' : ∀ k : Fin 64, x3 (ix2 k q) = w (ix2 (i 1) k) := h3
  have h1' : x1 (ix2 p q) = fs i := h1
  have h2' : x2 (ix2 p 0) = sc (ix2 (i 0) 0) := h2
  rw [pay_apply, h1', h2']
  unfold Cert.Message.msg
  exact congrArg (fun s => (s + fs i) * sc (ix2 (i 0) 0)) (Finset.sum_congr rfl fun k _ => by rw [h0' k, h3' k])

end Cert.KernelIdeal.Payload

end
-- ==== Proof.KernelBlocks.lean ====
/- From the 200 blocks to the whole message array.

   The region runs over 200 grid points; point `t` stages rows 8000 t .. 8000 t + 7999 of the edge features, of the
   gathered source features and of the scale column, the whole transposed weight, and writes back the same rows of the
   output. Every stored block is therefore the restriction to its rows of ONE function of the whole arrays: the
   message array of `MessageSpec`. The blocks tile the output (row `r` lies in block `r / 8000`), so after the
   region the output array IS the message array. The weight the body sees is the host's transpose of `W`, read at
   (k, f) as `W (f, k)`. -/
import proofs.«133310_j84335977825023_1_alg».proof.Proof.Gen.KernelIdeal.Frame
import proofs.«133310_j84335977825023_1_alg».proof.Proof.KernelPayload
import Idealize.ShloMosaic.Lib.Pipeline.Value
import Idealize.ShloMosaic.Lib.StableHlo.Run

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- The printed index maps over the grid: the four row-blocked windows sit at block row `t`, block column 0; the
    weight's one block is the whole matrix. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The weight as the region finds it is the transpose of `W`: entry (k, f) is `W (f, k)`. -/
theorem weight_apply (c : Dev nD) (k f : Fin 64) :
    V m c main_v15 (ix2 k f) = m ((c : Thread nD τ).loc main_arg3) (ix2 f k) := by
  have e : (V m c main_v15 : S64x64.Idx → EReal)
      = transpose S64x64 [1, 0] (m ((c : Thread nD τ).loc main_arg3)) transposes_S64x64_S64x64_1_0 := by
    show StableHlo.after hostOps0 (fun b => m (c, b)) (Proc.devRef .tc main_v15) = _
    after_results
  rw [e]
  exact transpose_apply [1, 0] _ _ (ix2 k f) (ix2 f k) (by intro b; match b with | ⟨0, _⟩ => rfl | ⟨1, _⟩ => rfl)

/-- WHAT POINT `t` WRITES BACK is block `t` of the message array of the arrays as the region finds them. -/
theorem flushed_eq (c : Dev nD) (t : Fin cfg0.N) :
    (dats m 0 c).flushed 4 t = ((cfg0.win 4).blk t).view.read (Elt Ideal)
      (Cert.Message.msg (m ((c : Thread nD τ).loc main_arg1)) (m ((c : Thread nD τ).loc main_arg3))
        (V m c main_v6) (V m c main_v14)) := by
  show (cfg0.win 4).cut (grid0.coords t) ((dats m 0 c).after 4 t) = _
  rw [after0_4]
  unfold out0_4
  rw [View.canon_unit_zero zero_offsets]
  simp only [View.ld_unit_zero (S := S8000x64) zero_offsets, View.ld_unit_zero (S := S64x64) zero_offsets,
    View.ld_unit_zero (S := S8000x1) zero_offsets]
  obtain ⟨a0, a1, b0, b1, s0, s1, w0, w1, o0, o1⟩ := index_facts t
  funext j
  show k0_pay1 (F := Ideal) (iblk m c 0 t) (iblk m c 3 t) (iblk m c 1 t) (iblk m c 2 t) j
    = Cert.Message.msg (m ((c : Thread nD τ).loc main_arg1)) (m ((c : Thread nD τ).loc main_arg3))
        (V m c main_v6) (V m c main_v14) (((cfg0.win 4).blk t).view.emb j)
  have hj0 : (j 0).val < 8000 := (j 0).isLt
  have hj1 : (j 1).val < 64 := (j 1).isLt
  refine Payload.pay_eq_msg (iblk m c 0 t) (iblk m c 3 t) (iblk m c 1 t) (iblk m c 2 t)
    (m ((c : Thread nD τ).loc main_arg1)) (m ((c : Thread nD τ).loc main_arg3)) (V m c main_v6) (V m c main_v14)
    j (((cfg0.win 4).blk t).view.emb j) (fun k => ?_) (fun k => ?_) ?_ ?_
  · -- the edge-feature block's row is the array's row at the output block's edge
    show V m c main_arg1 (((cfg0.win 0).blk t).view.emb (ix2 (j 0) k))
      = m ((c : Thread nD τ).loc main_arg1) (ix2 ((((cfg0.win 4).blk t).view.emb j) 0) k)
    rw [V_main_arg1]
    refine congrArg _ (funext fun a => Fin.ext ?_)
    match a with
    | ⟨0, _⟩ => show win0_0.index t (0 : Fin 2) * 8000 + 1 * (j 0).val = win0_4.index t (0 : Fin 2) * 8000 + 1 * (j 0).val; omega
    | ⟨1, _⟩ => show win0_0.index t (1 : Fin 2) * 64 + 1 * k.val = k.val; omega
  · -- the weight block is the whole transposed weight: column `j 1` is row `j 1` of `W`
    show V m c main_v15 (((cfg0.win 3).blk t).view.emb (ix2 k (j 1)))
      = m ((c : Thread nD τ).loc main_arg3) (ix2 ((((cfg0.win 4).blk t).view.emb j) 1) k)
    have e3 : ((cfg0.win 3).blk t).view.emb (ix2 k (j 1)) = ix2 k (⟨(j 1).val, hj1⟩ : Fin 64) := by
      funext a; apply Fin.ext
      match a with
      | ⟨0, _⟩ => show win0_3.index t (0 : Fin 2) * 64 + 1 * k.val = k.val; omega
      | ⟨1, _⟩ => show win0_3.index t (1 : Fin 2) * 64 + 1 * (j 1).val = (j 1).val; omega
    refine (congrArg (V m c main_v15) e3).trans ((weight_apply m c k ⟨(j 1).val, hj1⟩).trans ?_)
    refine congrArg _ (funext fun a => Fin.ext ?_)
    match a with
    | ⟨0, _⟩ => show (j 1).val = win0_4.index t (1 : Fin 2) * 64 + 1 * (j 1).val; omega
    | ⟨1, _⟩ => rfl
  · -- the gathered-feature block sits where the output block sits
    show V m c main_v6 (((cfg0.win 1).blk t).view.emb (ix2 (j 0) (j 1))) = V m c main_v6 (((cfg0.win 4).blk t).view.emb j)
    refine congrArg _ (funext fun a => Fin.ext ?_)
    match a with
    | ⟨0, _⟩ => show win0_1.index t (0 : Fin 2) * 8000 + 1 * (j 0).val = win0_4.index t (0 : Fin 2) * 8000 + 1 * (j 0).val; omega
    | ⟨1, _⟩ => show win0_1.index t (1 : Fin 2) * 64 + 1 * (j 1).val = win0_4.index t (1 : Fin 2) * 64 + 1 * (j 1).val; omega
  · -- the scale block's row is the scale column at the output block's edge
    show V m c main_v14 (((cfg0.win 2).blk t).view.emb (ix2 (j 0) 0))
      = V m c main_v14 (ix2 ((((cfg0.win 4).blk t).view.emb j) 0) 0)
    refine congrArg _ (funext fun a => Fin.ext ?_)
    match a with
    | ⟨0, _⟩ => show win0_2.index t (0 : Fin 2) * 8000 + 1 * (j 0).val = win0_4.index t (0 : Fin 2) * 8000 + 1 * (j 0).val; omega
    | ⟨1, _⟩ => show win0_2.index t (1 : Fin 2) * 1 + 1 * 0 = 0; omega

/-- An index of the output array is in point `t`'s block iff each coordinate is in the block's range on its axis. -/
theorem mem_block (t : Fin cfg0.N) (i : S1600000x64.Idx) :
    i ∈ ((cfg0.win 4).blk t).view.set ↔ ∀ a : Fin 2, win0_4.index t a * S8000x64.size a ≤ (i a).val
      ∧ (i a).val < win0_4.index t a * S8000x64.size a + S8000x64.size a := by
  show i ∈ ((View.whole main_v16).slice (win0_4.rect t)).set ↔ _
  rw [View.set_slice_whole, Rect.mem_set_unit]
  exact Iff.rfl

/-- The blocks tile the output: row `r` lies in the block of point `r / 8000`. -/
theorem cover (i : S1600000x64.Idx) :
    ∃ t : Fin cfg0.N, (cfg0.win 4).flush t = true ∧ i ∈ ((cfg0.win 4).blk t).view.set := by
  have hi0 : (i 0).val < 1600000 := (i 0).isLt
  have hi1 : (i 1).val < 64 := (i 1).isLt
  have ht : (i 0).val / 8000 < cfg0.N := lt_of_lt_of_eq (by omega : (i 0).val / 8000 < 200) N_0.symm
  obtain ⟨-, -, -, -, -, -, -, -, o0, o1⟩ := index_facts ⟨(i 0).val / 8000, ht⟩
  have o0' : win0_4.index ⟨(i 0).val / 8000, ht⟩ (0 : Fin 2) = (i 0).val / 8000 := o0
  refine ⟨⟨(i 0).val / 8000, ht⟩, flush0_4 _, ?_⟩
  rw [mem_block]
  intro a
  match a with
  | ⟨0, _⟩ =>
    show win0_4.index ⟨(i 0).val / 8000, ht⟩ (0 : Fin 2) * 8000 ≤ (i 0).val
      ∧ (i 0).val < win0_4.index ⟨(i 0).val / 8000, ht⟩ (0 : Fin 2) * 8000 + 8000
    omega
  | ⟨1, _⟩ =>
    show win0_4.index ⟨(i 0).val / 8000, ht⟩ (1 : Fin 2) * 64 ≤ (i 1).val
      ∧ (i 1).val < win0_4.index ⟨(i 0).val / 8000, ht⟩ (1 : Fin 2) * 64 + 64
    omega

/-- THE OUTPUT ARRAY after the region is the message array of the arrays as the region finds them. -/
theorem output_eq (c : Dev nD) :
    (dats m 0 c).arrAt 4 cfg0.N
      = Cert.Message.msg (m ((c : Thread nD τ).loc main_arg1)) (m ((c : Thread nD τ).loc main_arg3))
          (V m c main_v6) (V m c main_v14) :=
  (dats m 0 c).arrAt_eq_of_cover 4 _ (fun t _ => flushed_eq m c t) cover

end Cert.KernelIdeal.Blocks

end
-- ==== Proof.KernelResult.lean ====
/- The kernel program's result as one term of its seven arguments.

   Before the region the host gathers the source-node features and the source-node coefficient per edge (the edge's
   source index first brought into range by adding 100000 to a negative one), multiplies the gathered coefficient by
   the dropout mask, and transposes the weight. The region leaves the message array of those (`KernelBlocks`). After
   the region the host scatter-adds the message rows into a zero array by destination index and multiplies each node's
   row by that node's coefficient. `finalOf` is that whole composition; `run` re-posts the generated frame run with
   the result buffer named by it. -/
import proofs.«133310_j84335977825023_1_alg».proof.Proof.KernelBlocks

set_option maxRecDepth 16384

noncomputable section

namespace Cert.KernelIdeal.Result

open Idealize.ShloMosaic Idealize.ShloMosaic.TcCoe Idealize.ShloMosaic.ValueIdx Idealize.SL.Sem
open Cert.KernelIdeal Cert.KernelIdeal.Gen
open Idealize.ShloMosaic.Pipeline (Dat)

/-- The source indices brought into range (a negative index counts from the end) and laid out as a column. -/
def sourceColumn (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The source-node features gathered per edge. -/
def gatheredFeatures (feature : FVec Ideal S100000x64 .f32) (src : IVec S1600000 32) : FVec Ideal S1600000x64 .f32 :=
  Host.gather gather_S100000x64_S1600000x1_S1600000x64_1_0_n_n_0_1_164 feature (sourceColumn src)

/-- The per-edge scale: the source node's coefficient times the dropout mask. -/
def edgeScale (ci : FVec Ideal S100000x1 .f32) (drop : FVec Ideal S1600000x1 .f32) (src : IVec S1600000 32) :
    FVec Ideal S1600000x1 .f32 :=
  mulf (Host.gather gather_S100000x1_S1600000x1_S1600000x1_1_0_n_n_0_1_11 ci (sourceColumn src)) drop

/-- The message rows summed into their destination nodes, each node's row then scaled by its coefficient. -/
def aggregate (ci : FVec Ideal S100000x1 .f32) (dst : IVec S1600000 32) (message : FVec Ideal S1600000x64 .f32) :
    FVec Ideal S100000x64 .f32 :=
  mulf (Host.scatterAdd scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 dst) message)
    (broadcastInDim S100000x64 ![0, 1] bcast_S100000x1_S100000x64_0_1 ci)

/-- The program's result of its arguments. -/
def finalOf (feature : FVec Ideal S100000x64 .f32) (review : FVec Ideal S1600000x64 .f32) (ci : FVec Ideal S100000x1 .f32)
    (w : FVec Ideal S64x64 .f32) (drop : FVec Ideal S1600000x1 .f32) (src dst : IVec S1600000 32) :
    FVec Ideal S100000x64 .f32 :=
  aggregate ci dst (Cert.Message.msg review w (gatheredFeatures feature src) (edgeScale ci drop src))

variable (m : (ℓ : Loc nD τ sig) → Buf (Elt Ideal) ℓ) (ρ : Dev nD → PrngReg)

/-- The gathered-feature array as the region finds it. -/
theorem staged_features (c : Dev nD) : (V m c main_v6 : S1600000x64.Idx → EReal)
    = gatheredFeatures (m ((c : Thread nD τ).loc main_arg0)) (m ((c : Thread nD τ).loc main_arg5)) := by
  generalize hR : gatheredFeatures (m ((c : Thread nD τ).loc main_arg0)) (m ((c : Thread nD τ).loc main_arg5)) = R
  show StableHlo.after hostOps0 (fun b => m (c, b)) (Proc.devRef .tc main_v6) = R
  after_results
  exact hR

/-- The scale column as the region finds it. -/
theorem staged_scale (c : Dev nD) : (V m c main_v14 : S1600000x1.Idx → EReal)
    = edgeScale (m ((c : Thread nD τ).loc main_arg2)) (m ((c : Thread nD τ).loc main_arg4)) (m ((c : Thread nD τ).loc main_arg5)) := by
  generalize hR : edgeScale (m ((c : Thread nD τ).loc main_arg2)) (m ((c : Thread nD τ).loc main_arg4))
    (m ((c : Thread nD τ).loc main_arg5)) = R
  show StableHlo.after hostOps0 (fun b => m (c, b)) (Proc.devRef .tc main_v14) = R
  after_results
  exact hR

/-- The result buffer after the host tail. -/
theorem result_eq (c : Dev nD) :
    (Pipeline.afterTail₀ cfgs (dats m) 0 (V0 m) [hostOps1] c main_v21 : S100000x64.Idx → EReal)
      = finalOf (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  -- the region's output array, and the two arguments the tail reads, under the region's exit contents
  have hout : Pipeline.withArrays (cfgs 0).spec c (V0 m c) (fun w => (dats m 0 c).arrAt w (cfgs 0).N) (Proc.devRef .tc main_v16)
      = (dats m 0 c).arrAt 4 cfg0.N := Pipeline.withArrays_arr spec0 launch0.win.arr_inj c _ _ 4
  have hdst : Pipeline.withArrays (cfgs 0).spec c (V0 m c) (fun w => (dats m 0 c).arrAt w (cfgs 0).N) (Proc.devRef .tc main_arg6)
      = m ((c : Thread nD τ).loc main_arg6) :=
    (Pipeline.withArrays_of_ne _ c (V0 m c) _ main_arg6 (by exact (by decide : ∀ w, Pipeline.arrRef spec0 w ≠ main_arg6))).trans
      (V_main_arg6 m c)
  have hci : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  have hfin : finalOf (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6))
      = aggregate
          (Pipeline.withArrays (cfgs 0).spec c (V0 m c) (fun w => (dats m 0 c).arrAt w (cfgs 0).N) (Proc.devRef .tc main_arg2))
          (Pipeline.withArrays (cfgs 0).spec c (V0 m c) (fun w => (dats m 0 c).arrAt w (cfgs 0).N) (Proc.devRef .tc main_arg6))
          (Pipeline.withArrays (cfgs 0).spec c (V0 m c) (fun w => (dats m 0 c).arrAt w (cfgs 0).N) (Proc.devRef .tc main_v16)) := by
    rw [hout, hdst, hci, Blocks.output_eq m c, staged_features m c, staged_scale m c]
    rfl
  rw [hfin]
  generalize hR : aggregate
      (Pipeline.withArrays (cfgs 0).spec c (V0 m c) (fun w => (dats m 0 c).arrAt w (cfgs 0).N) (Proc.devRef .tc main_arg2))
      (Pipeline.withArrays (cfgs 0).spec c (V0 m c) (fun w => (dats m 0 c).arrAt w (cfgs 0).N) (Proc.devRef .tc main_arg6))
      (Pipeline.withArrays (cfgs 0).spec c (V0 m c) (fun w => (dats m 0 c).arrAt w (cfgs 0).N) (Proc.devRef .tc main_v16)) = R
  unfold Pipeline.afterTail₀
  show StableHlo.after (hostOps1 (F := Ideal)) _ (Proc.devRef .tc main_v21) = R
  after_results
  exact hR

/-- THE RUN, READ: every weakly fair execution terminates with the result buffer at `finalOf` of the arguments and the
    arguments unchanged (the generated frame run, its post read at the result and at each argument). -/
theorem run : θ_run defs (onTc (τ := τ) (main (F := Ideal))) ⟨m, fun _ => 0, ρ⟩ fun r => ∀ c : Dev nD,
      r.2.mem ((c.tc : Thread nD τ).loc main_v21)
        = finalOf (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v21 (Pipeline.mem_restRefs_of main_v21 (by decide) (by decide))).trans (result_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Result

end
-- ==== Proof.LibDotReadRhsT.lean ====
/- A matrix product's contraction sum re-indexed by the contracted coordinate, for the product of an m x k matrix by
   the transpose of an n x k matrix: both operands are contracted along their second axis. -/
import Idealize.ShloMosaic.Lib.ValueIdx
import Idealize.ShloMosaic.PureOps.Ideal.Laws

noncomputable section

open scoped BigOperators

namespace Cert.DotReadRhsT

open Idealize.ShloMosaic Idealize.ShloMosaic.ValueIdx

/-- The right operand transposed: the contraction at (a, b) runs over A (a, c) * B (b, c). -/
theorem sum_contr_rhsT {m k n : Nat}
    (w : DotDims.WF ⟨2, ![m, k]⟩ ⟨2, ![n, k]⟩ ⟨2, ![m, n]⟩ [1] [1] [0] [0] [] [])
    (A : (⟨2, ![m, k]⟩ : Shape).Idx → EReal) (B : (⟨2, ![n, k]⟩ : Shape).Idx → EReal) (a : Fin m) (b : Fin n) :
    ∑ q : (⟨[1], [1], [0], [0], [], [], w⟩ : DotDims ⟨2, ![m, k]⟩ ⟨2, ![n, k]⟩ ⟨2, ![m, n]⟩).contr.Idx,
        A ((⟨[1], [1], [0], [0], [], [], w⟩ : DotDims ⟨2, ![m, k]⟩ ⟨2, ![n, k]⟩ ⟨2, ![m, n]⟩).lhsIdx (ix2 a b) q)
          * B ((⟨[1], [1], [0], [0], [], [], w⟩ : DotDims ⟨2, ![m, k]⟩ ⟨2, ![n, k]⟩ ⟨2, ![m, n]⟩).rhsIdx (ix2 a b) q)
      = ∑ c : Fin k, A (ix2 a c) * B (ix2 b c) := by
  rw [← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.DotReadRhsT

end
-- ==== Proof.ReferenceMessage.lean ====
/- The reference's message stage is the message array.

   The reference forms the projection as one whole contraction of the edge features against the SECOND axis of
   `W`, adds the gathered source features, and multiplies by the per-edge scale column broadcast along the 64
   features. Read at edge `e`, feature `f` that is
     (sum over k of review (e, k) * W (f, k)  +  fs (e, f)) * sc (e, 0),
   the message array of `MessageSpec`, whatever arrays `fs` and `sc` are. -/
import proofs.«133310_j84335977825023_1_alg».proof.ReferenceIdeal
import proofs.«133310_j84335977825023_1_alg».proof.Proof.Gen.ReferenceIdeal
import proofs.«133310_j84335977825023_1_alg».proof.Proof.LibDotReadRhsT
import proofs.«133310_j84335977825023_1_alg».proof.Proof.MessageSpec
import Idealize.ShloMosaic.Lib.ValueIdx
import Idealize.ShloMosaic.Lib.Pipeline.Value
import Idealize.ShloMosaic.PureOps.Ideal.Laws

noncomputable section

open scoped BigOperators

namespace Cert.ReferenceIdeal.Message

open Idealize.ShloMosaic Idealize.ShloMosaic.ValueIdx Cert.ReferenceIdeal Cert.ReferenceIdeal.Gen

/-- The whole contraction at (e, f): along the row of the edge features and along row `f` of `W`. -/
theorem projection_apply (review : FVec Ideal S1600000x64 .f32) (w : FVec Ideal S64x64 .f32) (e : Fin 1600000) (f : Fin 64) :
    Host.dotGeneral dot_S1600000x64_S64x64_S1600000x64_1_1_0_0_n_n none review w (ix2 e f)
      = ∑ k : Fin 64, review (ix2 e k) * w (ix2 f k) :=
  (Ideal.dotGeneral_apply dot_S1600000x64_S64x64_S1600000x64_1_1_0_0_n_n none .single review w (ix2 e f)).trans
    (Cert.DotReadRhsT.sum_contr_rhsT dot_S1600000x64_S64x64_S1600000x64_1_1_0_0_n_n_wf review w e f)

/-- The reference's message stage, as a whole array, is the message array of its four operands. -/
theorem stage_eq_msg (review : FVec Ideal S1600000x64 .f32) (w : FVec Ideal S64x64 .f32)
    (fs : FVec Ideal S1600000x64 .f32) (sc : FVec Ideal S1600000x1 .f32) :
    mulf (addf (Host.dotGeneral dot_S1600000x64_S64x64_S1600000x64_1_1_0_0_n_n none review w) fs)
        (broadcastInDim S1600000x64 ![0, 1] bcast_S1600000x1_S1600000x64_0_1 sc)
      = Cert.Message.msg review w fs sc := by
  funext i
  obtain ⟨e, f, rfl⟩ : ∃ (e : Fin 1600000) (f : Fin 64), i = ix2 e f := ⟨i 0, i 1, eq_ix2 i⟩
  rw [mulf_apply, addf_apply, projection_apply,
    broadcastInDim_apply ![0, 1] bcast_S1600000x1_S1600000x64_0_1 sc (ix2 e f) (ix2 e 0)
      (by intro a; match a with | ⟨0, _⟩ => rfl | ⟨1, _⟩ => rfl)]
  rfl

end Cert.ReferenceIdeal.Message

end
-- ==== Proof.lean ====
/- Message passing over 1,600,000 edges into 100,000 nodes: the blocked kernel against the whole-array reference.

   Both programs compute, for every edge e with source s(e) and destination d(e),
     msg (e, :) = (review (e, :) . W^T  +  feature (s(e), :)) * (ci (s(e)) * drop (e)),
   sum the message rows into their destination nodes, and scale node n's row by ci (n). The kernel forms the message
   array 8000 edges at a time on a grid of 200 points, against the weight transposed on the host beforehand; the
   reference forms it in one contraction against the weight's second axis. At the extended reals a change of float
   format is the identity and a product into a zero accumulator is the plain finite sum, so the two message arrays are
   the SAME function of the arguments, index by index (`Cert.Message.msg`): no law beyond re-indexing the contraction
   is used, and the finiteness precondition is never opened. The gathers before and the scatter-add and scaling after
   are the same host operations in both programs, applied to equal arrays.

   The pieces: `MessageSpec` (the message array), `KernelPayload` (one stored block at an index), `KernelBlocks` (the 200
   blocks tile the output with that one function), `KernelResult` (the host operations around the region; the run with its
   result named), `ReferenceMessage` (the reference's message stage is the same function). The three frames are the
   generated frame runs; the idealization rewrote nothing, so `preserves` is trivial. -/
import proofs.«133310_j84335977825023_1_alg».proof.Defs
import proofs.«133310_j84335977825023_1_alg».proof.Proof.Gen.Kernel
import proofs.«133310_j84335977825023_1_alg».proof.Proof.Gen.Kernel.Skeleton
import proofs.«133310_j84335977825023_1_alg».proof.Proof.Gen.Kernel.Launch
import proofs.«133310_j84335977825023_1_alg».proof.Proof.Gen.Kernel.Points
import proofs.«133310_j84335977825023_1_alg».proof.Proof.Gen.Kernel.Frame
import proofs.«133310_j84335977825023_1_alg».proof.Proof.Gen.KernelIdeal
import proofs.«133310_j84335977825023_1_alg».proof.Proof.Gen.KernelIdeal.Skeleton
import proofs.«133310_j84335977825023_1_alg».proof.Proof.Gen.KernelIdeal.Launch
import proofs.«133310_j84335977825023_1_alg».proof.Proof.Gen.KernelIdeal.Points
import proofs.«133310_j84335977825023_1_alg».proof.Proof.Gen.KernelIdeal.Frame
import proofs.«133310_j84335977825023_1_alg».proof.Proof.Gen.ReferenceIdeal
import proofs.«133310_j84335977825023_1_alg».proof.Proof.Gen.Pre_finite_inputs
import proofs.«133310_j84335977825023_1_alg».proof.Proof.Gen.ReferenceIdeal.Run
import proofs.«133310_j84335977825023_1_alg».proof.Proof.KernelResult
import proofs.«133310_j84335977825023_1_alg».proof.Proof.ReferenceMessage
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the result at `finalOf` of the arguments: the
    kernel program by its run read (`KernelResult`), the reference because its message stage is the message array
    (`ReferenceMessage`) and everything around it is the same operations of equal arrays. -/
theorem algebraic : Cert.algebraic_KernelIdeal_ReferenceIdeal := by
  intro m ρ m' ρ' _ hagree
  refine ⟨fun c => Cert.KernelIdeal.Result.finalOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Message.stage_eq_msg, (hagree c).1, (hagree c).2.1, (hagree c).2.2.1, (hagree c).2.2.2.1,
    (hagree c).2.2.2.2.1, (hagree c).2.2.2.2.2.1, (hagree c).2.2.2.2.2.2]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
